-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1024x512 .f32) (main_arg1 : FVec F S512x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S1024x512 : Shape := ⟨2, ![1024, 512]⟩
abbrev S512x512 : Shape := ⟨2, ![512, 512]⟩
abbrev S32x512 : Shape := ⟨2, ![32, 512]⟩
abbrev S128x512 : Shape := ⟨2, ![128, 512]⟩
abbrev S32x128 : Shape := ⟨2, ![32, 128]⟩
abbrev S32x1x512 : Shape := ⟨3, ![32, 1, 512]⟩
abbrev S1x128x512 : Shape := ⟨3, ![1, 128, 512]⟩
abbrev S32x128x512 : Shape := ⟨3, ![32, 128, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .f32⟩
  | .local _ .vmem, ⟨0, _⟩ => ⟨S32x512, .f32⟩
  | .local _ .vmem, ⟨1, _⟩ => ⟨S32x512, .f32⟩
  | .local _ .vmem, ⟨2, _⟩ => ⟨S128x512, .f32⟩
  | .local _ .vmem, ⟨3, _⟩ => ⟨S128x512, .f32⟩
  | .local _ .vmem, ⟨4, _⟩ => ⟨S32x128, .f32⟩
  | .local _ .vmem, ⟨5, _⟩ => ⟨S32x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S32x512_S32x512_0_0 : ∀ a, (![0, 0] : Fin 2 → Nat) a + S32x512.size a ≤ S32x512.size a
  h_S32x512 : 0 < S32x512.numel
  inb_S128x512_S128x512_0_0 : ∀ a, (![0, 0] : Fin 2 → Nat) a + S128x512.size a ≤ S128x512.size a
  h_S128x512 : 0 < S128x512.numel
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  reduces_S32x128x512_S32x128 : S32x128x512.Reduces [2] S32x128
  inb_S32x128_S32x128_0_0 : ∀ a, (![0, 0] : Fin 2 → Nat) a + S32x128.size a ≤ S32x128.size a
  h_S32x128 : 0 < S32x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S1024x512.size a
  hwx0_0 : ∀ i : grid0.Coords, EltTy.bits .f32 = 32 ∨ (Rect.block (s := S1024x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S1024x512.size a
  hwx0_2 : ∀ i : grid0.Coords, EltTy.bits .f32 = 32 ∨ (Rect.block (s := S1024x512) S32x128.size (cc0_transform_2 i) (hinb0_2 i)).WholeWords (EltTy.packing .f32)

variable [Facts₀]

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x1x512, .f32⟩
  | .hbm, ⟨3, _⟩ => ⟨S1x512x512, .f32⟩
  | .hbm, ⟨4, _⟩ => ⟨S1024x512x512, .f32⟩
  | .hbm, ⟨5, _⟩ => ⟨S1024x512x512, .f32⟩
  | .hbm, ⟨6, _⟩ => ⟨S1024x512x512, .f32⟩
  | .hbm, ⟨7, _⟩ => ⟨S_, .f32⟩
  | .hbm, ⟨8, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel

variable [Facts₀]

class Facts : Prop extends Facts₀ where

variable [Facts]
-- ==== Proof.LibOuterPair.lean ====
/-
  General lemmas for kernels that pair every row of one matrix with every row of another ("outer" broadcasting:
  `x[:, None, :]` against `y[None, :, :]`) and reduce the paired values over the shared last axis.

  • Layout, read at an index written by coordinates: an `[a, c]` array cast to `[a, 1, c]`
    (`shapeCast_ac_a1c_apply`); an `[a, 1, c]` array broadcast to `[a, b, c]` (`broadcastTo_a1c_abc_apply`: the
    middle coordinate is forgotten); a `[1, b, c]` array broadcast to `[a, b, c]` (`broadcastTo_1bc_abc_apply`:
    the leading coordinate is forgotten).
  • A float add-reduction of an `[a, b, c]` vector over its last axis, on the extended reals, read at `(i, j)`: the
    sum over `k` of the source at `(i, j, k)` (`multiReduction_add_last3`).
  • Order on the extended reals: a square is never negative, at the two infinities too (`⊥ · ⊥ = ⊤ · ⊤ = ⊤`), so a
    finite sum of squares is never negative and its maximum with zero is the sum itself
    (`ereal_mul_self_nonneg`, `sum_mul_self_nonneg`, `max_sum_mul_self_zero`). No finiteness is asked.
-/
import Idealize.ShloMosaic.Lib.ValueLayout
import Idealize.ShloMosaic.PureOps.Ideal.Laws

open scoped BigOperators

namespace Cert.Lib.OuterPair

open Idealize.ShloMosaic Idealize.ShloMosaic.ValueIdx

variable {α : Type}

/-! ## A middle unit axis added by a shape cast, and the two broadcasts that fill a unit axis -/

/-- An `[a, c]` array cast to `[a, 1, c]` reads, at `(i, u, k)`, the operand at `(i, k)`: the two indices have the
    same row-major position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## A sum over the last of three axes, read at an index -/

/-- On the extended reals a float add-reduction of an `[a, b, c]` vector over its last axis is, at `(i, j)`, the sum
    over `k` of the source at `(i, j, k)`: the reduced index with the coordinate `k` put back in last place. -/
theorem multiReduction_add_last3 {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-! ## Squares and their sums on the extended reals -/

/-- A square is never negative on the extended reals: a real's square is a real square, and both infinities square
    to `⊤`. -/
theorem ereal_mul_self_nonneg (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

/-- So a finite sum of squares is never negative, -/
theorem sum_mul_self_nonneg {ι : Type} (s : Finset ι) (d : ι → EReal) : 0 ≤ ∑ k ∈ s, d k * d k :=
  Finset.sum_nonneg fun k _ => ereal_mul_self_nonneg (d k)

/-- and clamping it below at zero changes nothing. -/
theorem max_sum_mul_self_zero {ι : Type} (s : Finset ι) (d : ι → EReal) :
    max (∑ k ∈ s, d k * d k) 0 = ∑ k ∈ s, d k * d k :=
  max_eq_left (sum_mul_self_nonneg s d)

end Cert.Lib.OuterPair
-- ==== Proof.LibMinLast.lean ====
/-
  General lemmas for a minimum taken over the last of three axes, on the extended reals, read at an index written by
  coordinates.

  • A float minimum-reduction of an `[a, b, c]` vector over its last axis is, at `(i, j)`, the fold of `min`, started
    at the accumulator's value, over `k` of the source at `(i, j, k)` (`multiReduction_minimumf_last3`).
  • A host `reduce` with a minimum body over the last axis of an `[a, b, c]` array is, at `(i, j)`, the same fold
    started at the initial value's one element (`hostReduce_minimumf_last3`).

  Both rest only on `min` being commutative and associative: the order in which either definition walks the axis
  does not matter, so the two folds are over one and the same finite set of coordinates `k`. No finiteness is asked:
  `min` on the extended reals is total, and `⊤` is its neutral element.
-/
import Idealize.ShloMosaic.Lib.ValueIdx
import Idealize.ShloMosaic.PureOps.Ideal.Laws

namespace Cert.Lib.MinLast

open Idealize.ShloMosaic Idealize.ShloMosaic.ValueIdx

/-- The reduced index `(i, j)` with the coordinate `k` put back in last place is `(i, j, k)`. -/
theorem lift_last3 {a b c : ℕ} (h : (⟨3, ![a, b, c]⟩ : Shape).Reduces [2] ⟨2, ![a, b]⟩) (i : Fin a) (j : Fin b) (k : Fin c) :
    h.lift (ix2 i j) k = ix3 i j k :=
  funext fun ax => Fin.ext (by
    match ax with
    | ⟨0, _⟩ => rfl
    | ⟨1, _⟩ => rfl
    | ⟨2, _⟩ => rfl)

/-- On the extended reals a float minimum-reduction of an `[a, b, c]` vector over its last axis is, at `(i, j)`, the
    least of the accumulator's value and the source's entries `(i, j, k)`, `k` running over the last axis. -/
theorem multiReduction_minimumf_last3 {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.minimumf.neutral φ hφ) (i : Fin a) (j : Fin b) :
    multiReduction .minimumf [2] ⟨2, ![a, b]⟩ src acc h hφ hacc (ix2 i j)
      = (Finset.univ : Finset (Fin c)).fold min (Ideal.ofBits φ acc) (fun k => src (ix3 i j k)) := by
  rw [multiReduction_minimumf_eq_fold]
  refine (h.fold_filter_drop_single _ _ src (ix2 i j)).trans ?_
  exact Finset.fold_congr fun k _ => congrArg src (lift_last3 h i j k)

/-- The host's `reduce` with a minimum body over the last axis of an `[a, b, c]` array is, at `(i, j)`, the least of
    the initial value and the operand's entries `(i, j, k)`. `h` is the vector-side shape fact at the same shapes: it
    names the index `(i, j, k)`. -/
theorem hostReduce_minimumf_last3 {φ : FTy} {a b c : ℕ} {u : Shape} (x : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce FloatOps.minimumf x init h' hu (ix2 i j)
      = (Finset.univ : Finset (Fin c)).fold min (init (Shape.Idx.first hu)) (fun k => x (ix3 i j k)) := by
  rw [Host.reduce_eq_fold_single FloatOps.minimumf x init h' h hu (ix2 i j)]
  exact Finset.fold_congr fun k _ => congrArg x (lift_last3 h i j k)

end Cert.Lib.MinLast
-- ==== Proof.KernelTile.lean ====
/-
  One tile of the kernel, read at an entry.

  At a grid point the body loads a block `x` of 32 rows of `X` and a block `w` of 128 rows of `W` (each row whole:
  all 512 columns), lays `x` out as `[32, 1, 512]` and `w` as `[1, 128, 512]`, broadcasts both to `[32, 128, 512]`,
  adds them, and takes the minimum over the last axis from `+∞`. So the stored tile holds, at `(p, q)`,
      `min over k of (x (p, k) + w (q, k))`:
  the two casts only insert a unit axis, each broadcast forgets the coordinate on that unit axis, and the reduction
  is a fold of `min` over the 512 columns in whatever order.
-/
import proofs.«171878_j70832600646269_1_alg».proof.Proof.Gen.KernelIdeal.Skeleton
import proofs.«171878_j70832600646269_1_alg».proof.Proof.LibOuterPair
import proofs.«171878_j70832600646269_1_alg».proof.Proof.LibMinLast
import Idealize.ShloMosaic.Lib.ValueLayout

noncomputable section

namespace Cert.KernelIdeal.Tile

open Cert.KernelIdeal Cert.KernelIdeal.Gen Idealize.ShloMosaic Idealize.ShloMosaic.ValueIdx
open Cert.Lib.OuterPair Cert.Lib.MinLast

/-- The summand the reduction runs over: at `(p, q, k)` the broadcast sum is row `p` of the first block plus row `q`
    of the second, both at column `k`. -/
theorem paired_sum_apply (x0 : Vec Ideal S32x512 .f32) (x1 : Vec Ideal S128x512 .f32) (p : Fin 32) (q : Fin 128) (k : Fin 512) :
    addf (F := Ideal) (φ := .f32)
        (broadcastTo S32x128x512 (shapeCast S32x1x512 x0 Facts₀.shapeCasts_S32x512_S32x1x512) Facts₀.broadcasts_S32x1x512_S32x128x512)
        (broadcastTo S32x128x512 (shapeCast S1x128x512 x1 Facts₀.shapeCasts_S128x512_S1x128x512) Facts₀.broadcasts_S1x128x512_S32x128x512)
        (ix3 p q k)
      = x0 (ix2 p k) + x1 (ix2 q k) := by
  rw [addf_apply, broadcastTo_a1c_abc_apply, broadcastTo_1bc_abc_apply, shapeCast_ac_a1c_apply, shapeCast_ab_1ab_apply]

/-- The stored tile at `(p, q)`: the least, over the column `k`, of row `p` of the first block plus row `q` of the
    second, started at `+∞`. -/
theorem tile_apply (x0 : Vec Ideal S32x512 .f32) (x1 : Vec Ideal S128x512 .f32) (p : Fin 32) (q : Fin 128) :
    k0_pay1 (F := Ideal) x0 x1 (ix2 p q)
      = (Finset.univ : Finset (Fin 512)).fold min (Ideal.ofBits .f32 0x7F800000#32) (fun k => x0 (ix2 p k) + x1 (ix2 q k)) := by
  unfold k0_pay1
  refine (multiReduction_minimumf_last3 _ _ _ _ _ p q).trans ?_
  exact Finset.fold_congr fun k _ => paired_sum_apply x0 x1 p q k

end Cert.KernelIdeal.Tile

end
-- ==== Proof.MinPlusSpec.lean ====
/-
  The tropical (min-plus) product, as one function of its two operands.

  For `X : [1024, 512]` and `W : [512, 512]` over the extended reals,
      `minPlus X W (b, j) = min over k of (X (b, k) + W (j, k))`,
  the minimum started at `+∞` (the word `0x7F800000` read as a float), `k` running over the 512 shared columns.
  It is what both programs compute; each side is shown equal to it, index by index.
-/
import Idealize.ShloMosaic.Lib.ValueIdx
import Idealize.ShloMosaic.PureOps.Ideal

noncomputable section

namespace Cert.MinPlus

open Idealize.ShloMosaic Idealize.ShloMosaic.ValueIdx

/-- The least, over the shared column `k`, of row `b` of `X` plus row `j` of `W`, started at `+∞`. -/
def minPlusAt (X : FVec Ideal ⟨2, ![1024, 512]⟩ .f32) (W : FVec Ideal ⟨2, ![512, 512]⟩ .f32) (b : Fin 1024) (j : Fin 512) : EReal :=
  (Finset.univ : Finset (Fin 512)).fold min (Ideal.ofBits .f32 0x7F800000#32) (fun k => X (ix2 b k) + W (ix2 j k))

/-- The whole result array: entry `(b, j)` pairs row `b` of `X` with row `j` of `W`. -/
def minPlus (X : FVec Ideal ⟨2, ![1024, 512]⟩ .f32) (W : FVec Ideal ⟨2, ![512, 512]⟩ .f32) : FVec Ideal ⟨2, ![1024, 512]⟩ .f32 :=
  fun i => minPlusAt X W (i 0) (i 1)

theorem minPlus_apply (X : FVec Ideal ⟨2, ![1024, 512]⟩ .f32) (W : FVec Ideal ⟨2, ![512, 512]⟩ .f32) (i : (⟨2, ![1024, 512]⟩ : Shape).Idx) :
    minPlus X W i = minPlusAt X W (i 0) (i 1) := rfl

/-- An entry depends on the operands only through the two rows it pairs: any row `x` that agrees with row `b` of `X`
    and any row `w` that agrees with row `j` of `W` give the same minimum. -/
theorem minPlusAt_of_rows (X : FVec Ideal ⟨2, ![1024, 512]⟩ .f32) (W : FVec Ideal ⟨2, ![512, 512]⟩ .f32) (b : Fin 1024) (j : Fin 512)
    (x w : Fin 512 → EReal) (hx : ∀ k, x k = X (ix2 b k)) (hw : ∀ k, w k = W (ix2 j k)) :
    (Finset.univ : Finset (Fin 512)).fold min (Ideal.ofBits .f32 0x7F800000#32) (fun k => x k + w k) = minPlusAt X W b j := by
  unfold minPlusAt
  exact Finset.fold_congr fun k _ => by rw [hx k, hw k]

end Cert.MinPlus

end
-- ==== Proof.KernelArray.lean ====
/-
  From tiles to the whole array: the kernel's result is the min-plus product.

  The grid has 32 × 4 points. Point `(a, b)` loads rows `32·a … 32·a + 31` of `X` (all columns) and rows
  `128·b … 128·b + 127` of `W` (all columns), and writes back the `32 × 128` tile of the result whose corner is
  `(32·a, 128·b)`. Entry `(p, q)` of that tile is the minimum over `k` of `x (p, k) + w (q, k)` of the two loaded
  blocks (the tile lemma), and row `p` of the first block is row `32·a + p` of `X`, row `q` of the second is row
  `128·b + q` of `W`: so the tile is the min-plus product restricted to the block. The 128 tiles cover the
  `1024 × 512` result exactly (entry `(r, s)` lies in the tile of point `(r / 32, s / 128)`), hence the whole array
  after the run is the product.
-/
import proofs.«171878_j70832600646269_1_alg».proof.Proof.Gen.KernelIdeal.Value
import proofs.«171878_j70832600646269_1_alg».proof.Proof.KernelTile
import proofs.«171878_j70832600646269_1_alg».proof.Proof.MinPlusSpec

noncomputable section

namespace Cert.KernelIdeal.MinPlusValue

open Cert.KernelIdeal Cert.KernelIdeal.Gen Idealize.ShloMosaic Idealize.ShloMosaic.TcCoe Idealize.SL.Sem
open Idealize.ShloMosaic.Pipeline (Dat)
open Idealize.ShloMosaic.ValueIdx Cert.MinPlus

variable (m : (ℓ : Loc nD τ sig) → Buf (Elt Ideal) ℓ) (ρ : Dev nD → PrngReg)

/-- Every load and the store of the body start at the corner of their buffer. -/
theorem corner : (![0, 0] : Fin 2 → Nat) = fun _ => 0 := funext fun a => by fin_cases a <;> rfl

/-- The block indices over the grid: the first operand's row block is the output's row block, the second operand's row
    block is the output's COLUMN block, both operands take all columns, and the output's block indices stay inside
    `32 × 4`. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 31 ∧ win0_2.index t (1 : Fin 2) ≤ 3 :=
  (by decide +kernel : ∀ t : Fin grid0.N, _)

/-- Every one of the `32 × 4` output blocks is some grid point's. -/
theorem every_block_met : ∀ (q0 : Fin 32) (q1 : Fin 4), ∃ t : Fin cfg0.N, win0_2.index t = ![q0.val, q1.val] :=
  (by decide +kernel : ∀ (q0 : Fin 32) (q1 : Fin 4), ∃ t : Fin grid0.N, win0_2.index t = ![q0.val, q1.val])

/-- A tile entry is an entry of the product, once the two loaded blocks are known to hold the right rows: if row
    `y 0` of the first block is row `i 0` of `X` and row `y 1` of the second block is row `i 1` of `W`, the tile at `y`
    is the product at `i`. -/
theorem tile_is_block (X : FVec Ideal S1024x512 .f32) (W : FVec Ideal S512x512 .f32)
    (x0 : Vec Ideal S32x512 .f32) (x1 : Vec Ideal S128x512 .f32) (y : S32x128.Idx) (i : S1024x512.Idx)
    (h0 : ∀ k : Fin 512, x0 (ix2 (y 0) k) = X (ix2 (i 0) k))
    (h1 : ∀ k : Fin 512, x1 (ix2 (y 1) k) = W (ix2 (i 1) k)) :
    k0_pay1 (F := Ideal) x0 x1 y = minPlus X W i :=
  (congrArg (k0_pay1 (F := Ideal) x0 x1) (eq_ix2 y)).trans
    ((Tile.tile_apply x0 x1 (y 0) (y 1)).trans
      (minPlusAt_of_rows X W (i 0) (i 1) (fun k => x0 (ix2 (y 0) k)) (fun k => x1 (ix2 (y 1) k)) h0 h1))

/-- What grid point `t` writes back is block `t` of the min-plus product of the two argument arrays. -/
theorem flushed_eq (c : Dev nD) (t : Fin cfg0.N) :
    (dats m 0 c).flushed 2 t = ((cfg0.win 2).blk t).view.read (Elt Ideal) (minPlus (V m c main_arg0) (V m c main_arg1)) := by
  rw [Value.flushed2]
  unfold out0_2
  rw [View.canon_unit_zero corner]
  simp only [View.ld_unit_zero (S := S32x512) corner, View.ld_unit_zero (S := S128x512) corner]
  obtain ⟨e00, e01, e10, e11, -, -⟩ := block_indices t
  funext y
  show k0_pay1 (iblk m c 0 t) (iblk m c 1 t) y = minPlus (V m c main_arg0) (V m c main_arg1) (((cfg0.win 2).blk t).view.emb y)
  refine tile_is_block (V m c main_arg0) (V m c main_arg1) (iblk m c 0 t) (iblk m c 1 t) y (((cfg0.win 2).blk t).view.emb y) ?_ ?_
  · intro k
    show V m c main_arg0 (((cfg0.win 0).blk t).view.emb (ix2 (y 0) k)) = V m c main_arg0 (ix2 ((((cfg0.win 2).blk t).view.emb y) 0) k)
    refine congrArg (V m c main_arg0) (funext fun a => Fin.ext ?_)
    match a with
    | ⟨0, _⟩ => show win0_0.index t (0 : Fin 2) * 32 + 1 * (y 0).val = win0_2.index t (0 : Fin 2) * 32 + 1 * (y 0).val; omega
    | ⟨1, _⟩ => show win0_0.index t (1 : Fin 2) * 512 + 1 * k.val = k.val; omega
  · intro k
    show V m c main_arg1 (((cfg0.win 1).blk t).view.emb (ix2 (y 1) k)) = V m c main_arg1 (ix2 ((((cfg0.win 2).blk t).view.emb y) 1) k)
    refine congrArg (V m c main_arg1) (funext fun a => Fin.ext ?_)
    match a with
    | ⟨0, _⟩ => show win0_1.index t (0 : Fin 2) * 128 + 1 * (y 1).val = win0_2.index t (1 : Fin 2) * 128 + 1 * (y 1).val; omega
    | ⟨1, _⟩ => show win0_1.index t (1 : Fin 2) * 512 + 1 * k.val = k.val; omega

/-- An entry of the result lies in point `t`'s tile exactly when each coordinate lies in the tile's range on its axis. -/
theorem mem_block (t : Fin cfg0.N) (i : S1024x512.Idx) :
    i ∈ ((cfg0.win 2).blk t).view.set ↔ ∀ a : Fin 2, win0_2.index t a * S32x128.size a ≤ (i a).val ∧ (i a).val < win0_2.index t a * S32x128.size a + S32x128.size a := by
  show i ∈ ((View.whole main_v0).slice (win0_2.rect t)).set ↔ _
  rw [View.set_slice_whole, Rect.mem_set_unit]
  exact Iff.rfl

/-- The tiles cover the result: entry `(r, s)` lies in the tile of the point whose block is `(r / 32, s / 128)`. -/
theorem covered (i : S1024x512.Idx) :
    ∃ t : Fin cfg0.N, (cfg0.win 2).flush t = true ∧ i ∈ ((cfg0.win 2).blk t).view.set := by
  have hi0 : (i 0).val < 1024 := (i 0).isLt
  have hi1 : (i 1).val < 512 := (i 1).isLt
  obtain ⟨t, ht⟩ := every_block_met ⟨(i 0).val / 32, by omega⟩ ⟨(i 1).val / 128, by omega⟩
  have q0 : win0_2.index t (0 : Fin 2) = (i 0).val / 32 := congrFun ht 0
  have q1 : win0_2.index t (1 : Fin 2) = (i 1).val / 128 := congrFun ht 1
  refine ⟨t, flush0_2 t, ?_⟩
  rw [mem_block]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 128 ≤ (i 1).val ∧ (i 1).val < win0_2.index t (1 : Fin 2) * 128 + 128; omega

/-- The result array after the run is the min-plus product of the two argument arrays. -/
theorem final (c : Dev nD) :
    (dats m 0 c).arrAt 2 cfg0.N = minPlus (m ((c : Thread nD τ).loc main_arg0)) (m ((c : Thread nD τ).loc main_arg1)) :=
  (dats m 0 c).arrAt_eq_of_cover 2 (minPlus (V m c main_arg0) (V m c main_arg1)) (fun t _ => flushed_eq m c t) covered

/-- The kernel's run: every weakly fair execution ends with the result array at the product and the arguments unchanged. -/
theorem run : θ_run defs (onTc (τ := τ) (main (F := Ideal))) ⟨m, fun _ => 0, ρ⟩ fun r => ∀ c : Dev nD,
      r.2.mem ((c : Thread nD τ).loc main_v0) = minPlus (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.MinPlusValue

end
-- ==== Proof.ReferenceArray.lean ====
/-
  The reference's result array is the min-plus product.

  The reference broadcasts `X` to `[1024, 1, 512]` and then to `[1024, 512, 512]`, `W` to `[1, 512, 512]` and then to
  `[1024, 512, 512]`, adds, and reduces the last axis by `minimum` from the rank-zero constant `+∞`. Read at
  `(b, j, k)` the sum is `X (b, k) + W (j, k)` (each broadcast forgets the coordinate on its unit axis), and the
  reduction at `(b, j)` is the fold of `min` over `k` from `+∞`: the product's entry `(b, j)`.
-/
import proofs.«171878_j70832600646269_1_alg».proof.Proof.Gen.ReferenceIdeal.Read
import proofs.«171878_j70832600646269_1_alg».proof.Proof.MinPlusSpec
import proofs.«171878_j70832600646269_1_alg».proof.Proof.LibMinLast

noncomputable section

namespace Cert.ReferenceIdeal.MinPlusValue

open Cert.ReferenceIdeal Cert.ReferenceIdeal.Gen Cert.ReferenceIdeal.Read
open Idealize.ShloMosaic Idealize.ShloMosaic.ValueIdx Cert.MinPlus Cert.Lib.MinLast

/-- The last axis of `[1024, 512, 512]` dropped leaves `[1024, 512]`. -/
theorem reduces_last : S1024x512x512.Reduces [2] S1024x512 := by decide

/-- The broadcast sum at `(b, j, k)`: row `b` of the first operand plus row `j` of the second, at column `k`. -/
theorem paired_sum_apply (x0 : FVec Ideal S1024x512 .f32) (x1 : FVec Ideal S512x512 .f32) (b : Fin 1024) (j : Fin 512) (k : Fin 512) :
    val_main_v4 (F := Ideal) x0 x1 (ix3 b j k) = x0 (ix2 b k) + x1 (ix2 j k) := by
  have e0 : idx_main_v0 (idx_main_v2 (ix3 b j k)) = ix2 b k :=
    funext fun a => Fin.ext (by match a with | ⟨0, _⟩ => rfl | ⟨1, _⟩ => rfl)
  have e1 : idx_main_v1 (idx_main_v3 (ix3 b j k)) = ix2 j k :=
    funext fun a => Fin.ext (by match a with | ⟨0, _⟩ => rfl | ⟨1, _⟩ => rfl)
  rw [val_main_v4_apply, val_main_v2_apply, val_main_v0_apply, val_main_v3_apply, val_main_v1_apply, e0, e1]
  rfl

/-- The reference's result, entry by entry, is the min-plus product of its two arguments. -/
theorem result_eq (x0 : FVec Ideal S1024x512 .f32) (x1 : FVec Ideal S512x512 .f32) :
    val_main_v5 (F := Ideal) x0 x1 = minPlus x0 x1 := by
  funext i
  obtain ⟨b, j, rfl⟩ : ∃ (b : Fin 1024) (j : Fin 512), i = ix2 b j := ⟨i 0, i 1, eq_ix2 i⟩
  unfold val_main_v5
  refine (hostReduce_minimumf_last3 _ _ _ reduces_last _ b j).trans ?_
  show _ = minPlusAt x0 x1 b j
  unfold minPlusAt
  exact Finset.fold_congr fun k _ => paired_sum_apply x0 x1 b j k

end Cert.ReferenceIdeal.MinPlusValue

end
-- ==== Proof.lean ====
/- Min-plus (tropical) matrix product: `out (b, j) = min over k of (X (b, k) + W (j, k))`, for `X : [1024, 512]` and
   `W : [512, 512]`, the minimum started at `+∞`.

   The kernel tiles the result into `32 × 128` blocks over a `32 × 4` grid; at each point it pairs 32 whole rows of
   `X` with 128 whole rows of `W` by broadcasting both to `[32, 128, 512]`, adds, and takes the minimum over the
   last axis. The reference does the same on the whole arrays at once: broadcast to `[1024, 512, 512]`, add, reduce
   the last axis by `minimum` from `+∞`.

   On the extended reals both are the one function `Cert.MinPlus.minPlus` of the two arguments:
   • the kernel: an entry of a tile is the fold of `min` over the 512 columns of the two loaded rows' sum
     (Proof/KernelTile.lean), the loaded rows are the rows of `X` and `W` the block indices name, and the 128 tiles
     cover the result exactly (Proof/KernelArray.lean);
   • the reference: its broadcast sum at `(b, j, k)` is `X (b, k) + W (j, k)`, and its reduction at `(b, j)` is the
     same fold (Proof/ReferenceArray.lean).
   The only law used is that `min` is commutative and associative, so that each reduction is a fold over the SET of
   column indices whatever order its definition walks them in; addition is never regrouped, so nothing is asked of
   the inputs' finiteness and the precondition is not opened. The idealization rewrote nothing, so `preserves` is
   `True`. The three frames are the generated ones (the reference's is its run with the result dropped). -/
import proofs.«171878_j70832600646269_1_alg».proof.Defs
import proofs.«171878_j70832600646269_1_alg».proof.Proof.Gen.Kernel
import proofs.«171878_j70832600646269_1_alg».proof.Proof.Gen.Kernel.Skeleton
import proofs.«171878_j70832600646269_1_alg».proof.Proof.Gen.Kernel.Launch
import proofs.«171878_j70832600646269_1_alg».proof.Proof.Gen.Kernel.Points
import proofs.«171878_j70832600646269_1_alg».proof.Proof.Gen.Kernel.Frame
import proofs.«171878_j70832600646269_1_alg».proof.Proof.Gen.KernelIdeal
import proofs.«171878_j70832600646269_1_alg».proof.Proof.Gen.KernelIdeal.Skeleton
import proofs.«171878_j70832600646269_1_alg».proof.Proof.Gen.KernelIdeal.Launch
import proofs.«171878_j70832600646269_1_alg».proof.Proof.Gen.KernelIdeal.Points
import proofs.«171878_j70832600646269_1_alg».proof.Proof.Gen.KernelIdeal.Frame
import proofs.«171878_j70832600646269_1_alg».proof.Proof.Gen.ReferenceIdeal
import proofs.«171878_j70832600646269_1_alg».proof.Proof.Gen.KernelIdeal.Value
import proofs.«171878_j70832600646269_1_alg».proof.Proof.Gen.ReferenceIdeal.Run
import proofs.«171878_j70832600646269_1_alg».proof.Proof.Gen.ReferenceIdeal.Read
import proofs.«171878_j70832600646269_1_alg».proof.Proof.Gen.Pre_finite_inputs
import proofs.«171878_j70832600646269_1_alg».proof.Proof.KernelArray
import proofs.«171878_j70832600646269_1_alg».proof.Proof.ReferenceArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From memories that agree on `X` and `W`, the kernel's result array and the reference's are both the min-plus
    product of `X` and `W`. -/
theorem algebraic : Cert.algebraic_KernelIdeal_ReferenceIdeal := by
  intro m ρ m' ρ' _ hagree
  refine ⟨_, Cert.KernelIdeal.MinPlusValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.MinPlusValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
